-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4194304 : Shape := ⟨1, ![4194304]⟩
abbrev S4096x32 : Shape := ⟨2, ![4096, 32]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S4194304 32) (main_arg2 : FVec F S4096x32 .f32) (main_arg3 : FVec F S4096x32 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4194304 : Shape := ⟨1, ![4194304]⟩
abbrev S4096x32 : Shape := ⟨2, ![4096, 32]⟩
abbrev S4096 : Shape := ⟨1, ![4096]⟩
abbrev S4 : Shape := ⟨1, ![4]⟩
abbrev S4194304x1 : Shape := ⟨2, ![4194304, 1]⟩
abbrev S1x4 : Shape := ⟨2, ![1, 4]⟩
abbrev S4194304x4 : Shape := ⟨2, ![4194304, 4]⟩
abbrev S_ : Shape := ⟨0, ![]⟩
abbrev S16777216 : Shape := ⟨1, ![16777216]⟩
abbrev S4096x32x128 : Shape := ⟨3, ![4096, 32, 128]⟩
abbrev S4096x32x1 : Shape := ⟨3, ![4096, 32, 1]⟩
abbrev S4096x4096 : Shape := ⟨2, ![4096, 4096]⟩
abbrev S8192x4096 : Shape := ⟨2, ![8192, 4096]⟩
abbrev S1x4096 : Shape := ⟨2, ![1, 4096]⟩
abbrev S512x4096 : Shape := ⟨2, ![512, 4096]⟩
abbrev S2048x4096 : Shape := ⟨2, ![2048, 4096]⟩
abbrev S1x2048 : Shape := ⟨2, ![1, 2048]⟩
abbrev S512x2048 : Shape := ⟨2, ![512, 2048]⟩

abbrev nBuf : Space → Nat
  | .hbm => 29
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4194304, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S4, .i32⟩
  | .hbm, ⟨6, _⟩ => ⟨S4194304x1, .i32⟩
  | .hbm, ⟨7, _⟩ => ⟨S1x4, .i32⟩
  | .hbm, ⟨8, _⟩ => ⟨S4194304x4, .i32⟩
  | .hbm, ⟨9, _⟩ => ⟨S4194304x4, .i32⟩
  | .hbm, ⟨10, _⟩ => ⟨S4194304x4, .i32⟩
  | .hbm, ⟨11, _⟩ => ⟨S_, .i32⟩
  | .hbm, ⟨12, _⟩ => ⟨S4194304x4, .i32⟩
  | .hbm, ⟨13, _⟩ => ⟨S4194304x4, .i32⟩
  | .hbm, ⟨14, _⟩ => ⟨S16777216, .i32⟩
  | .hbm, ⟨15, _⟩ => ⟨S4096x32x128, .i32⟩
  | .hbm, ⟨16, _⟩ => ⟨S4096x32x128, .f32⟩
  | .hbm, ⟨17, _⟩ => ⟨S4096x32x1, .f32⟩
  | .hbm, ⟨18, _⟩ => ⟨S4096x32x128, .f32⟩
  | .hbm, ⟨19, _⟩ => ⟨S4096x32x128, .f32⟩
  | .hbm, ⟨20, _⟩ => ⟨S4096x32x1, .f32⟩
  | .hbm, ⟨21, _⟩ => ⟨S4096x32x128, .f32⟩
  | .hbm, ⟨22, _⟩ => ⟨S4096x32x128, .f32⟩
  | .hbm, ⟨23, _⟩ => ⟨S4096x4096, .f32⟩
  | .hbm, ⟨24, _⟩ => ⟨S4096x4096, .bf16⟩
  | .hbm, ⟨25, _⟩ => ⟨S8192x4096, .f32⟩
  | .hbm, ⟨26, _⟩ => ⟨S1x4096, .f32⟩
  | .hbm, ⟨27, _⟩ => ⟨S8192x4096, .f32⟩
  | .hbm, ⟨28, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S2048x4096, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S4194304_S4194304x1_0 : S4194304.BroadcastsInDim S4194304x1 (![0] : Fin 1 → Fin S4194304x1.rank)
  bcast_S4_S1x4_1 : S4.BroadcastsInDim S1x4 (![1] : Fin 1 → Fin S1x4.rank)
  bcast_S4194304x1_S4194304x4_0_1 : S4194304x1.BroadcastsInDim S4194304x4 (![0, 1] : Fin 2 → Fin S4194304x4.rank)
  bcast_S1x4_S4194304x4_0_1 : S1x4.BroadcastsInDim S4194304x4 (![0, 1] : Fin 2 → Fin S4194304x4.rank)
  bcast_S_S4194304x4 : S_.BroadcastsInDim S4194304x4 (![] : Fin 0 → Fin S4194304x4.rank)
  shapeCasts_S4194304x4_S16777216 : S4194304x4.ShapeCasts S16777216
  shapeCasts_S16777216_S4096x32x128 : S16777216.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  shapeCasts_S8192x4096_S4x2048x4096 : S8192x4096.ShapeCasts S4x2048x4096
  dot_S512x4096_S2048x4096_S512x2048_1_1_0_0_n_n_wf : DotDims.WF S512x4096 S2048x4096 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S4096x4096.size a
  hwx0_1 : ∀ i : grid0.Coords, EltTy.bits .bf16 = 32 ∨ (Rect.block (s := S4096x4096) S2048x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x4096.size a
  hwx0_3 : ∀ i : grid0.Coords, EltTy.bits .f32 = 32 ∨ (Rect.block (s := S8192x4096) S512x2048.size (cc0_transform_3 i) (hinb0_3 i)).WholeWords (EltTy.packing .f32)

variable [Facts₀]

def dot_S512x4096_S2048x4096_S512x2048_1_1_0_0_n_n : DotDims S512x4096 S2048x4096 S512x2048 where
  lhsContracting := [1]
  rhsContracting := [1]
  lhsNonContracting := [0]
  rhsNonContracting := [0]
  lhsBatch := []
  rhsBatch := []
  wf := dot_S512x4096_S2048x4096_S512x2048_1_1_0_0_n_n_wf

abbrev win0_0 : Pipeline.Window sig grid0 :=
  Pipeline.Window.ofSpec (Memref.whole main_v18) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4194304 : Shape := ⟨1, ![4194304]⟩
abbrev S4096x32 : Shape := ⟨2, ![4096, 32]⟩
abbrev S4096 : Shape := ⟨1, ![4096]⟩
abbrev S4 : Shape := ⟨1, ![4]⟩
abbrev S4194304x1 : Shape := ⟨2, ![4194304, 1]⟩
abbrev S1x4 : Shape := ⟨2, ![1, 4]⟩
abbrev S4194304x4 : Shape := ⟨2, ![4194304, 4]⟩
abbrev S_ : Shape := ⟨0, ![]⟩
abbrev S16777216 : Shape := ⟨1, ![16777216]⟩
abbrev S4096x32x128 : Shape := ⟨3, ![4096, 32, 128]⟩
abbrev S4096x32x1 : Shape := ⟨3, ![4096, 32, 1]⟩
abbrev S4096x4096 : Shape := ⟨2, ![4096, 4096]⟩
abbrev S1x1x4096 : Shape := ⟨3, ![1, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4194304, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S4, .i32⟩
  | .hbm, ⟨6, _⟩ => ⟨S4194304x1, .i32⟩
  | .hbm, ⟨7, _⟩ => ⟨S1x4, .i32⟩
  | .hbm, ⟨8, _⟩ => ⟨S4194304x4, .i32⟩
  | .hbm, ⟨9, _⟩ => ⟨S4194304x4, .i32⟩
  | .hbm, ⟨10, _⟩ => ⟨S4194304x4, .i32⟩
  | .hbm, ⟨11, _⟩ => ⟨S_, .i32⟩
  | .hbm, ⟨12, _⟩ => ⟨S4194304x4, .i32⟩
  | .hbm, ⟨13, _⟩ => ⟨S4194304x4, .i32⟩
  | .hbm, ⟨14, _⟩ => ⟨S16777216, .i32⟩
  | .hbm, ⟨15, _⟩ => ⟨S4096x32x128, .i32⟩
  | .hbm, ⟨16, _⟩ => ⟨S4096x32x128, .f32⟩
  | .hbm, ⟨17, _⟩ => ⟨S4096x32x1, .f32⟩
  | .hbm, ⟨18, _⟩ => ⟨S4096x32x128, .f32⟩
  | .hbm, ⟨19, _⟩ => ⟨S4096x32x128, .f32⟩
  | .hbm, ⟨20, _⟩ => ⟨S4096x32x1, .f32⟩
  | .hbm, ⟨21, _⟩ => ⟨S4096x32x128, .f32⟩
  | .hbm, ⟨22, _⟩ => ⟨S4096x32x128, .f32⟩
  | .hbm, ⟨23, _⟩ => ⟨S4096x4096, .f32⟩
  | .hbm, ⟨24, _⟩ => ⟨S4x2048x4096, .f32⟩
  | .hbm, ⟨25, _⟩ => ⟨S1x1x4096, .f32⟩
  | .hbm, ⟨26, _⟩ => ⟨S4x2048x4096, .f32⟩
  | .hbm, ⟨27, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  bcast_S4194304_S4194304x1_0 : S4194304.BroadcastsInDim S4194304x1 (![0] : Fin 1 → Fin S4194304x1.rank)
  bcast_S4_S1x4_1 : S4.BroadcastsInDim S1x4 (![1] : Fin 1 → Fin S1x4.rank)
  bcast_S4194304x1_S4194304x4_0_1 : S4194304x1.BroadcastsInDim S4194304x4 (![0, 1] : Fin 2 → Fin S4194304x4.rank)
  bcast_S1x4_S4194304x4_0_1 : S1x4.BroadcastsInDim S4194304x4 (![0, 1] : Fin 2 → Fin S4194304x4.rank)
  bcast_S_S4194304x4 : S_.BroadcastsInDim S4194304x4 (![] : Fin 0 → Fin S4194304x4.rank)
  shapeCasts_S4194304x4_S16777216 : S4194304x4.ShapeCasts S16777216
  shapeCasts_S16777216_S4096x32x128 : S16777216.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KernelBlock.lean ====
/-
  What the kernel body computes from the three blocks it loads, read at one entry. The body multiplies the
  512 × 4096 block of activations by the 2048 × 4096 block of weights, contracting the second axis of both (so
  entry (p, q) pairs row `p` of the activations with row `q` of the weights), into a zero accumulator, and adds
  the 1 × 2048 bias row to every row of the product. On the extended reals the narrowing of the activations to a
  16-bit format is the identity and the zero accumulator adds nothing, so entry (p, q) is

      (∑ k < 4096, x[p, k] · w[q, k]) + b[0, q].
-/
import proofs.«408426_j73315091743455_3_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Block

open Cert.KernelIdeal Cert.KernelIdeal.Gen Idealize.ShloMosaic Idealize.ShloMosaic.ValueIdx

/-! ### Which entries of its operands the product reads, axis by axis

Output entry `j` and contraction position `k` read the left operand at (`j 0`, `k`) and the right operand at
(`j 1`, `k`): both operands are contracted over their second axis. -/

theorem lhs_0 (j : S512x2048.Idx) (k : dot_S512x4096_S2048x4096_S512x2048_1_1_0_0_n_n.contr.Idx) :
    (dot_S512x4096_S2048x4096_S512x2048_1_1_0_0_n_n.lhsIdx j k 0 : ℕ) = j 0 := by
  simp [DotDims.lhsIdx, dot_S512x4096_S2048x4096_S512x2048_1_1_0_0_n_n]; rfl
theorem lhs_1 (j : S512x2048.Idx) (k : dot_S512x4096_S2048x4096_S512x2048_1_1_0_0_n_n.contr.Idx) :
    (dot_S512x4096_S2048x4096_S512x2048_1_1_0_0_n_n.lhsIdx j k 1 : ℕ) = k ⟨0, by decide⟩ := by
  simp [DotDims.lhsIdx, dot_S512x4096_S2048x4096_S512x2048_1_1_0_0_n_n]; rfl
theorem rhs_0 (j : S512x2048.Idx) (k : dot_S512x4096_S2048x4096_S512x2048_1_1_0_0_n_n.contr.Idx) :
    (dot_S512x4096_S2048x4096_S512x2048_1_1_0_0_n_n.rhsIdx j k 0 : ℕ) = j 1 := by
  simp [DotDims.rhsIdx, dot_S512x4096_S2048x4096_S512x2048_1_1_0_0_n_n]; rfl
theorem rhs_1 (j : S512x2048.Idx) (k : dot_S512x4096_S2048x4096_S512x2048_1_1_0_0_n_n.contr.Idx) :
    (dot_S512x4096_S2048x4096_S512x2048_1_1_0_0_n_n.rhsIdx j k 1 : ℕ) = k ⟨0, by decide⟩ := by
  simp [DotDims.rhsIdx, dot_S512x4096_S2048x4096_S512x2048_1_1_0_0_n_n]; rfl

/-- The left operand's index at output entry (p, q) and contraction position `k` is (p, k). -/
theorem lhs_at (p : Fin 512) (q : Fin 2048) (k : Fin 4096) :
    dot_S512x4096_S2048x4096_S512x2048_1_1_0_0_n_n.lhsIdx (ix2 p q) ((contrEquiv1 dot_S512x4096_S2048x4096_S512x2048_1_1_0_0_n_n 4096 rfl rfl).symm k) = ix2 p k := by
  funext a; apply Fin.ext
  match a with
  | ⟨0, _⟩ => exact lhs_0 _ _
  | ⟨1, _⟩ => exact (lhs_1 _ _).trans (contrEquiv1_symm_val dot_S512x4096_S2048x4096_S512x2048_1_1_0_0_n_n 4096 rfl rfl k)

/-- The right operand's index at output entry (p, q) and contraction position `k` is (q, k). -/
theorem rhs_at (p : Fin 512) (q : Fin 2048) (k : Fin 4096) :
    dot_S512x4096_S2048x4096_S512x2048_1_1_0_0_n_n.rhsIdx (ix2 p q) ((contrEquiv1 dot_S512x4096_S2048x4096_S512x2048_1_1_0_0_n_n 4096 rfl rfl).symm k) = ix2 q k := by
  funext a; apply Fin.ext
  match a with
  | ⟨0, _⟩ => exact rhs_0 _ _
  | ⟨1, _⟩ => exact (rhs_1 _ _).trans (contrEquiv1_symm_val dot_S512x4096_S2048x4096_S512x2048_1_1_0_0_n_n 4096 rfl rfl k)

/-- The body's stored value at entry (p, q): the row-by-row product over the 4096 features, plus the bias row. -/
theorem pay_apply (x0 : Vec Ideal S512x4096 .f32) (x1 : Vec Ideal S2048x4096 .bf16) (x2 : Vec Ideal S1x2048 .f32)
    (p : Fin 512) (q : Fin 2048) :
    k0_pay1 (F := Ideal) x0 x1 x2 (ix2 p q) = (∑ k : Fin 4096, x0 (ix2 p k) * x1 (ix2 q k)) + x2 (ix2 0 q) := by
  unfold k0_pay1
  rw [shapeCast_self, shapeCast_self, shapeCast_self]
  show FloatOps.matmul (F := Ideal) dot_S512x4096_S2048x4096_S512x2048_1_1_0_0_n_n none (truncf (F := Ideal) .bf16 x0 bitsLt_bf16_f32) x1
        (constant (F := Ideal) S512x2048 .f32 0x00000000#32) (ix2 p q)
      + broadcastTo S512x2048 x2 broadcasts_S1x2048_S512x2048 (ix2 p q) = _
  rw [Ideal.matmul_constant_zero_apply,
    broadcastTo_apply x2 broadcasts_S1x2048_S512x2048 (ix2 p q) (ix2 0 q)
      (fun a => by match a with | ⟨0, _⟩ => rfl | ⟨1, _⟩ => rfl)]
  congr 1
  rw [← Equiv.sum_comp (contrEquiv1 dot_S512x4096_S2048x4096_S512x2048_1_1_0_0_n_n 4096 rfl rfl).symm]
  refine Finset.sum_congr rfl fun k _ => ?_
  rw [lhs_at, rhs_at]
  rfl

end Cert.KernelIdeal.Block

end
-- ==== Proof.Spec.lean ====
/-
  What both programs compute, as one function of the arrays: for an activation array `x` of shape
  4 × 2048 × 4096, a weight matrix `w` of shape 4096 × 4096 (row `o` holds output feature `o`'s weights) and a
  bias `b` of length 4096, the entry at (p, s, o) is

      (∑ k < 4096, x[p, s, k] · w[o, k]) + b[o]

  on the extended reals. The sum is a finite sum in a commutative monoid, so it does not depend on the order or the
  grouping in which a program adds its terms; no law that fails at an infinity is used anywhere.
-/
import Idealize.ShloMosaic.PureOps.Ideal
import Idealize.ShloMosaic.Lib.ValueIdx

noncomputable section

open scoped BigOperators

namespace Cert.Linear

open Idealize.ShloMosaic Idealize.ShloMosaic.ValueIdx

/-- The entry at explicit coordinates. -/
def linearAt (x : (⟨3, ![4, 2048, 4096]⟩ : Shape).Idx → EReal) (w : (⟨2, ![4096, 4096]⟩ : Shape).Idx → EReal)
    (b : (⟨1, ![4096]⟩ : Shape).Idx → EReal) (p : Fin 4) (s : Fin 2048) (o : Fin 4096) : EReal :=
  (∑ k : Fin 4096, x (ix3 p s k) * w (ix2 o k)) + b (ix1 o)

/-- The whole result array. -/
def linearOut (x : (⟨3, ![4, 2048, 4096]⟩ : Shape).Idx → EReal) (w : (⟨2, ![4096, 4096]⟩ : Shape).Idx → EReal)
    (b : (⟨1, ![4096]⟩ : Shape).Idx → EReal) : (⟨3, ![4, 2048, 4096]⟩ : Shape).Idx → EReal :=
  fun i => linearAt x w b (i 0) (i 1) (i 2)

theorem linearOut_ix3 (x : (⟨3, ![4, 2048, 4096]⟩ : Shape).Idx → EReal) (w : (⟨2, ![4096, 4096]⟩ : Shape).Idx → EReal)
    (b : (⟨1, ![4096]⟩ : Shape).Idx → EReal) (p : Fin 4) (s : Fin 2048) (o : Fin 4096) :
    linearOut x w b (ix3 p s o) = linearAt x w b p s o := rfl

end Cert.Linear

end
-- ==== Proof.Region.lean ====
/-
  The region's output as one function, and how the host's reshapes around the region turn it into the specification.

  The region works on flattened arrays: the activations as 8192 × 4096 (row `2048·p + s` holds entry (p, s) of the
  4 × 2048 × 4096 array: the same row-major position), the bias as a 1 × 4096 row. Its output's entry (r, o) is
  `(∑ k, X[r, k] · W[o, k]) + B[0, o]`. Reshaping that output back to 4 × 2048 × 4096 reads entry (p, s, o) at
  (2048·p + s, o), where the flattened activations' row is the original (p, s, ·) and the bias row's entry is the
  original bias at `o`: the specification's entry.
-/
import proofs.«408426_j73315091743455_3_alg».proof.KernelIdeal
import proofs.«408426_j73315091743455_3_alg».proof.Proof.Spec
import Idealize.ShloMosaic.Lib.ValueIdx
import Idealize.ShloMosaic.Lib.Pipeline.Value

noncomputable section

open scoped BigOperators

namespace Cert.KernelIdeal.Region

open Cert.KernelIdeal Cert.KernelIdeal.Facts₀ Idealize.ShloMosaic Idealize.ShloMosaic.ValueIdx Cert.Linear

/-- Entry (r, o) of the region's output: row `r` of the activations against row `o` of the weights, plus the bias at `o`. -/
def regionOut (X : S8192x4096.Idx → EReal) (W : S4096x4096.Idx → EReal) (B : S1x4096.Idx → EReal) :
    S8192x4096.Idx → EReal :=
  fun i => (∑ k : Fin 4096, X (ix2 (n0 := 8192) (i 0) k) * W (ix2 (n0 := 4096) (i 1) k)) + B (ix2 (n0 := 1) 0 (i 1))

theorem regionOut_ix2 (X : S8192x4096.Idx → EReal) (W : S4096x4096.Idx → EReal) (B : S1x4096.Idx → EReal)
    (r : Fin 8192) (o : Fin 4096) :
    regionOut X W B (ix2 r o) = (∑ k : Fin 4096, X (ix2 r k) * W (ix2 o k)) + B (ix2 (0 : Fin 1) o) := rfl

variable [Cert.KernelIdeal.Facts]

/-- The flattened activations at (2048·p + s, k) are the activations at (p, s, k). -/
theorem flat_x (x : S4x2048x4096.Idx → EReal) (p : Fin 4) (s : Fin 2048) (k : Fin 4096) (h : 2048 * p.val + s.val < 8192) :
    shapeCast S8192x4096 x shapeCasts_S4x2048x4096_S8192x4096 (ix2 ⟨2048 * p.val + s.val, h⟩ k) = x (ix3 p s k) := by
  refine shapeCast_apply x _ _ _ ?_
  rw [Shape.rowMajor_val_two, Shape.rowMajor_val_three]
  show (p.val * 2048 + s.val) * 4096 + k.val = (2048 * p.val + s.val) * 4096 + k.val
  omega

/-- The bias row at (0, o) is the bias at `o`. -/
theorem flat_b (b : S4096.Idx → EReal) (o : Fin 4096) :
    shapeCast S1x4096 b shapeCasts_S4096_S1x4096 (ix2 (0 : Fin 1) o) = b (ix1 o) := by
  refine shapeCast_apply b _ _ _ ?_
  rw [Shape.rowMajor_val_two, Shape.rowMajor_val_one]
  show o.val = 0 * 4096 + o.val
  omega

/-- The region's output on the flattened arrays, reshaped back, is the specification. -/
theorem reshape_regionOut (x : S4x2048x4096.Idx → EReal) (W : S4096x4096.Idx → EReal) (b : S4096.Idx → EReal) :
    shapeCast S4x2048x4096
        (regionOut (shapeCast S8192x4096 x shapeCasts_S4x2048x4096_S8192x4096) W
          (shapeCast S1x4096 b shapeCasts_S4096_S1x4096))
        shapeCasts_S8192x4096_S4x2048x4096
      = linearOut x W b := by
  funext i
  obtain ⟨p, s, o, rfl⟩ : ∃ (p : Fin 4) (s : Fin 2048) (o : Fin 4096), i = ix3 p s o := ⟨i 0, i 1, i 2, eq_ix3 i⟩
  have h : 2048 * p.val + s.val < 8192 := by have := p.isLt; have := s.isLt; omega
  rw [linearOut_ix3]
  unfold linearAt
  refine (shapeCast_apply _ shapeCasts_S8192x4096_S4x2048x4096 (ix3 p s o) (ix2 ⟨2048 * p.val + s.val, h⟩ o) ?_).trans ?_
  · rw [Shape.rowMajor_val_two, Shape.rowMajor_val_three]
    show (2048 * p.val + s.val) * 4096 + o.val = (p.val * 2048 + s.val) * 4096 + o.val
    omega
  · rw [regionOut_ix2, flat_b]
    congr 1
    exact Finset.sum_congr rfl fun k _ => by rw [flat_x]

end Cert.KernelIdeal.Region

end
-- ==== Proof.Weight.lean ====
/-
  The weight matrix both programs multiply by. Each 32-bit word of the packed array holds four 2-bit
  fields, at bit offsets 0, 2, 4 and 6; field `j` of word `n` is the integer `(word n >>> 2j) &&& 3`, and it
  sits at flat position `4n + j`. The flat array of 4096 · 4096 fields is cut into 4096 rows of 32 groups of 128
  columns; the field at (row, group, column) is converted to a float, multiplied by the scale of (row, group) and
  added to the zero point of (row, group); and the three axes are laid out again as a 4096 × 4096 matrix.

  Both programs compute this matrix by the same twenty host operations on the same three arrays, so it is
  stated here once, as one function of those arrays for any float instance, and nothing below ever opens it:
  the two results are compared as functions of whatever this matrix is.
-/
import proofs.«408426_j73315091743455_3_alg».proof.ReferenceIdeal

noncomputable section

namespace Cert.Dequant

open Idealize.ShloMosaic Cert.ReferenceIdeal Cert.ReferenceIdeal.Facts₀

variable {F : FTy → Type} [FloatOps F] [Cert.ReferenceIdeal.Facts]

/-- The integer fields, as a 4096 × 32 × 128 array: `(word >>> shift) &&& 3` laid out flat and cut again. -/
def fields (wp : (⟨S4194304, .i32⟩ : BufTy).Contents (Elt F)) : (⟨S4096x32x128, .i32⟩ : BufTy).Contents (Elt F) :=
  shapeCast S4096x32x128
    (shapeCast S16777216
      (andi
        (Host.shrsi
          (broadcastInDim S4194304x4 ![0, 1] bcast_S4194304x1_S4194304x4_0_1
            (broadcastInDim S4194304x1 ![0] bcast_S4194304_S4194304x1_0 wp))
          (broadcastInDim S4194304x4 ![0, 1] bcast_S1x4_S4194304x4_0_1
            (broadcastInDim S1x4 ![1] bcast_S4_S1x4_1 (fun i => lit0 (S4.rowMajor i)))))
        (broadcastInDim S4194304x4 ![] bcast_S_S4194304x4 (constantI S_ 32 3#32)))
      shapeCasts_S4194304x4_S16777216)
    shapeCasts_S16777216_S4096x32x128

/-- The dequantised weight: field · scale + zero point, group by group, as a 4096 × 4096 matrix. -/
def weight (wp : (⟨S4194304, .i32⟩ : BufTy).Contents (Elt F)) (sc zr : (⟨S4096x32, .f32⟩ : BufTy).Contents (Elt F)) :
    (⟨S4096x4096, .f32⟩ : BufTy).Contents (Elt F) :=
  shapeCast S4096x4096
    (addf
      (mulf (sitofp .f32 (fields (F := F) wp) : (⟨S4096x32x128, .f32⟩ : BufTy).Contents (Elt F))
        (broadcastInDim S4096x32x128 ![0, 1, 2] bcast_S4096x32x1_S4096x32x128_0_1_2
          (broadcastInDim S4096x32x1 ![0, 1] bcast_S4096x32_S4096x32x1_0_1 sc)))
      (broadcastInDim S4096x32x128 ![0, 1, 2] bcast_S4096x32x1_S4096x32x128_0_1_2
        (broadcastInDim S4096x32x1 ![0, 1] bcast_S4096x32_S4096x32x1_0_1 zr)))
    shapeCasts_S4096x32x128_S4096x4096

end Cert.Dequant

end
-- ==== Proof.KernelValue.lean ====
/-
  The kernel program's result, read off its run.

  Before the region the host reshapes the activations to 8192 × 4096 (row `2048·p + s` is entry (p, s)), narrows
  the dequantised weight matrix (the identity on the extended reals) and reshapes the bias to 1 × 4096. The
  region walks a 2 × 16 grid; at point (n, i) it loads rows `512·i …` of the activations, rows `2048·n …` of the
  weight matrix and columns `2048·n …` of the bias row, and writes the 512 × 2048 block (i, n) of the output. Every
  block of the output is written by exactly the point that computes it, and block (i, n) of ONE whole-array
  function — entry (r, o) is `(∑ k, X[r, k] · W[o, k]) + B[0, o]` — is what that point writes. The 16 × 2 blocks
  tile the 8192 × 4096 output, so the region leaves that function in it. After the region the host reshapes it back
  to 4 × 2048 × 4096.
-/
import proofs.«408426_j73315091743455_3_alg».proof.Proof.Gen.KernelIdeal.Frame
import proofs.«408426_j73315091743455_3_alg».proof.Proof.Gen.ReferenceIdeal
import proofs.«408426_j73315091743455_3_alg».proof.Proof.KernelBlock
import proofs.«408426_j73315091743455_3_alg».proof.Proof.Region
import proofs.«408426_j73315091743455_3_alg».proof.Proof.Weight
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.KernelIdeal.Region Cert.Linear

variable (m : (ℓ : Loc nD τ sig) → Buf (Elt Ideal) ℓ) (ρ : Dev nD → PrngReg)

/-! ## What each grid point writes back, and the output array after the region -/

theorem hz : (![0, 0] : Fin 2 → Nat) = fun _ => 0 := funext fun a => by fin_cases a <;> rfl

/-- The printed index maps over the 32 grid points: the activation block moves with the output's row block, the
    weight and bias blocks with the output's column block, and the output's block indices stay in range. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 15 ∧ win0_3.index t (1 : Fin 2) ≤ 1 :=
  (by decide +kernel : ∀ t : Fin grid0.N, _)

/-- Every block of the output is some grid point's. -/
theorem idx_onto : ∀ (q0 : Fin 16) (q1 : Fin 2), ∃ t : Fin cfg0.N, win0_3.index t = ![q0.val, q1.val] :=
  (by decide +kernel : ∀ (q0 : Fin 16) (q1 : Fin 2), ∃ t : Fin grid0.N, win0_3.index t = ![q0.val, q1.val])

/-- WHAT POINT `t` WRITES BACK is block `t` of `regionOut` of the three arrays as the region finds them. -/
theorem flushed_eq (c : Dev nD) (t : Fin cfg0.N) :
    (dats m 0 c).flushed 3 t
      = ((cfg0.win 3).blk t).view.read (Elt Ideal) (regionOut (V m c main_v18) (V m c main_v17) (V m c main_v19)) := by
  show (cfg0.win 3).cut (grid0.coords t) ((dats m 0 c).after 3 t) = _
  rw [after0_3]
  unfold out0_3
  rw [View.canon_unit_zero hz]
  simp only [View.ld_unit_zero (S := S512x4096) hz, View.ld_unit_zero (S := S2048x4096) hz, View.ld_unit_zero (S := S1x2048) hz]
  obtain ⟨e0, e1, e2, e3, e4, e5, e6, e7⟩ := idx_facts t
  funext j
  obtain ⟨p, q, rfl⟩ : ∃ (p : Fin 512) (q : Fin 2048), j = ix2 p q := ⟨j 0, j 1, eq_ix2 j⟩
  show k0_pay1 (F := Ideal) (iblk m c 0 t) (iblk m c 1 t) (iblk m c 2 t) (ix2 p q)
      = regionOut (V m c main_v18) (V m c main_v17) (V m c main_v19) (((cfg0.win 3).blk t).view.emb (ix2 p q))
  refine (Block.pay_apply _ _ _ p q).trans ?_
  unfold regionOut
  -- the three input blocks, read where the output block's entry says
  have h0 : ∀ k : Fin 4096, ((cfg0.win 0).blk t).view.emb (ix2 p k)
      = ix2 (n0 := 8192) ((((cfg0.win 3).blk t).view.emb (ix2 p q)) 0) k := by
    intro k; funext a; apply Fin.ext
    match a with
    | ⟨0, _⟩ => show win0_0.index t (0 : Fin 2) * 512 + 1 * p.val = win0_3.index t (0 : Fin 2) * 512 + 1 * p.val; omega
    | ⟨1, _⟩ => show win0_0.index t (1 : Fin 2) * 4096 + 1 * k.val = k.val; omega
  have h1 : ∀ k : Fin 4096, ((cfg0.win 1).blk t).view.emb (ix2 q k)
      = ix2 (n0 := 4096) ((((cfg0.win 3).blk t).view.emb (ix2 p q)) 1) k := by
    intro k; funext a; apply Fin.ext
    match a with
    | ⟨0, _⟩ => show win0_1.index t (0 : Fin 2) * 2048 + 1 * q.val = win0_3.index t (1 : Fin 2) * 2048 + 1 * q.val; omega
    | ⟨1, _⟩ => show win0_1.index t (1 : Fin 2) * 4096 + 1 * k.val = k.val; omega
  have h2 : ((cfg0.win 2).blk t).view.emb (ix2 (0 : Fin 1) q)
      = ix2 (n0 := 1) 0 ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 2048 + 1 * q.val = win0_3.index t (1 : Fin 2) * 2048 + 1 * q.val; omega
  refine congrArg₂ (· + ·) (Finset.sum_congr rfl fun k _ => congrArg₂ (· * ·) ?_ ?_) ?_
  · show V m c main_v18 (((cfg0.win 0).blk t).view.emb (ix2 p k)) = _
    rw [h0 k]
  · show V m c main_v17 (((cfg0.win 1).blk t).view.emb (ix2 q k)) = _
    rw [h1 k]
  · show V m c main_v19 (((cfg0.win 2).blk t).view.emb (ix2 (0 : Fin 1) q)) = _
    rw [h2]
    rfl

/-- An index of the output is in point `t`'s block iff each coordinate is in the block's range on its axis. -/
theorem mem_blk (t : Fin cfg0.N) (i : S8192x4096.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v20).slice (win0_3.rect t)).set ↔ _
  rw [View.set_slice_whole, Rect.mem_set_unit]
  exact Iff.rfl

/-- The 16 × 2 blocks tile the output: entry (r, o) lies in block (r / 512, o / 2048). -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 512, by omega⟩ ⟨(i 1).val / 2048, by omega⟩
  have q0 : win0_3.index t (0 : Fin 2) = (i 0).val / 512 := congrFun ht 0
  have q1 : win0_3.index t (1 : Fin 2) = (i 1).val / 2048 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- THE OUTPUT ARRAY after the region: `regionOut` of the three arrays the region reads. -/
theorem region_final (c : Dev nD) :
    (dats m 0 c).arrAt 3 cfg0.N = regionOut (V m c main_v18) (V m c main_v17) (V m c main_v19) :=
  (dats m 0 c).arrAt_eq_of_cover 3 _ (fun t _ => flushed_eq m c t) cover

/-! ## What the host operations before the region leave in the three arrays the region reads -/

/-- The activations, flattened to 8192 × 4096. -/
theorem V_v18 (c : Dev nD) :
    V m c main_v18 = shapeCast S8192x4096 (m ((c : Thread nD τ).loc main_arg0)) shapeCasts_S4x2048x4096_S8192x4096 := by
  show StableHlo.after hostOps0 (fun b => m (c, b)) (Proc.devRef .tc main_v18) = _
  after_results_simp
  rfl

/-- The bias, as a 1 × 4096 row. -/
theorem V_v19 (c : Dev nD) :
    V m c main_v19 = shapeCast S1x4096 (m ((c : Thread nD τ).loc main_arg4)) shapeCasts_S4096_S1x4096 := by
  show StableHlo.after hostOps0 (fun b => m (c, b)) (Proc.devRef .tc main_v19) = _
  after_results_simp
  rfl

set_option maxHeartbeats 2000000 in
/-- The dequantised weight matrix: the narrowing to a 16-bit format is the identity on the extended reals. -/
theorem V_v17 (c : Dev nD) :
    V m c main_v17 = Cert.Dequant.weight (F := Ideal) (m ((c : Thread nD τ).loc main_arg1))
      (m ((c : Thread nD τ).loc main_arg2)) (m ((c : Thread nD τ).loc main_arg3)) := by
  show StableHlo.after hostOps0 (fun b => m (c, b)) (Proc.devRef .tc main_v17) = _
  unfold Cert.Dequant.weight Cert.Dequant.fields
  after_results_simp
  rfl

/-! ## The host operation after the region, and the run -/

/-- The result buffer: the region's output reshaped to 4 × 2048 × 4096. -/
theorem tail_v21 (c : Dev nD) :
    Pipeline.afterTail₀ cfgs (dats m) 0 (V0 m) [hostOps1] c main_v21
      = shapeCast S4x2048x4096 (regionOut (V m c main_v18) (V m c main_v17) (V m c main_v19))
          shapeCasts_S8192x4096_S4x2048x4096 := by
  unfold Pipeline.afterTail₀
  show StableHlo.after hostOps1 _ (Proc.devRef .tc main_v21) = _
  after_results
  have e : Pipeline.withArrays (cfgs 0).spec c (V0 m c) (fun w => (dats m 0 c).arrAt w (cfgs 0).N) (Proc.devRef .tc main_v20)
      = regionOut (V m c main_v18) (V m c main_v17) (V m c main_v19) :=
    (Pipeline.withArrays_arr spec0 launch0.win.arr_inj c _ _ 3).trans (region_final m c)
  rw [e]
  rfl

/-- The result buffer is the specification of the argument arrays: the flattening before the region and the
    reshape after it cancel (Proof/Region.lean). -/
theorem result_v21 (c : Dev nD) :
    Pipeline.afterTail₀ cfgs (dats m) 0 (V0 m) [hostOps1] c main_v21
      = linearOut (m ((c.tc : Thread nD τ).loc main_arg0))
          (Cert.Dequant.weight (F := Ideal) (m ((c.tc : Thread nD τ).loc main_arg1)) (m ((c.tc : Thread nD τ).loc main_arg2))
            (m ((c.tc : Thread nD τ).loc main_arg3)))
          (m ((c.tc : Thread nD τ).loc main_arg4)) := by
  rw [tail_v21, V_v18, V_v17, V_v19]
  exact reshape_regionOut _ _ _

/-- From any memory with zero counters every weakly fair execution of the kernel program terminates with its result at
    the specification of the argument arrays and with its five argument arrays as they were. -/
theorem run : θ_run defs (onTc (τ := τ) (main (F := Ideal))) ⟨m, fun _ => 0, ρ⟩ fun r => ∀ c : Dev nD,
      r.2.mem ((c.tc : Thread nD τ).loc main_v21)
        = linearOut (m ((c.tc : Thread nD τ).loc main_arg0))
            (Cert.Dequant.weight (F := Ideal) (m ((c.tc : Thread nD τ).loc main_arg1)) (m ((c.tc : Thread nD τ).loc main_arg2))
              (m ((c.tc : Thread nD τ).loc main_arg3)))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v21 (Pipeline.mem_restRefs_of main_v21 (by decide) (by decide))).trans (result_v21 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KernelIdeal.RegionValue

end
-- ==== Proof.RefRun.lean ====
/-
  The reference program's run, read back. Its entry function is a straight line of 23 host operations: the twenty
  that build the dequantised weight matrix (Proof/Weight.lean), one `dot_general` of the activations with that matrix
  over the feature axis, two broadcasts of the bias to the result's shape, and the final addition. Listed in order,
  the library's rule for a sequence of host operations gives: every weakly fair execution terminates, the result
  buffer holds the operations' composed term of the argument arrays, and the argument arrays are unchanged.
-/
import proofs.«408426_j73315091743455_3_alg».proof.Proof.Gen.ReferenceIdeal
import proofs.«408426_j73315091743455_3_alg».proof.Proof.Weight
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's 23 operations, in order. -/
abbrev ops : List (HloOp τ sig (Elt F)) :=
  [ StableHlo.nullary main_c (fun i => lit0 (S4.rowMajor i)),
    StableHlo.unary main_arg1 main_v0 (broadcastInDim S4194304x1 ![0] bcast_S4194304_S4194304x1_0 : (⟨S4194304, .i32⟩ : BufTy).Contents (Elt F) → (⟨S4194304x1, .i32⟩ : BufTy).Contents (Elt F)),
    StableHlo.unary main_c main_v1 (broadcastInDim S1x4 ![1] bcast_S4_S1x4_1 : (⟨S4, .i32⟩ : BufTy).Contents (Elt F) → (⟨S1x4, .i32⟩ : BufTy).Contents (Elt F)),
    StableHlo.unary main_v0 main_v2 (broadcastInDim S4194304x4 ![0, 1] bcast_S4194304x1_S4194304x4_0_1 : (⟨S4194304x1, .i32⟩ : BufTy).Contents (Elt F) → (⟨S4194304x4, .i32⟩ : BufTy).Contents (Elt F)),
    StableHlo.unary main_v1 main_v3 (broadcastInDim S4194304x4 ![0, 1] bcast_S1x4_S4194304x4_0_1 : (⟨S1x4, .i32⟩ : BufTy).Contents (Elt F) → (⟨S4194304x4, .i32⟩ : BufTy).Contents (Elt F)),
    StableHlo.binary main_v2 main_v3 main_v4 (Host.shrsi : (⟨S4194304x4, .i32⟩ : BufTy).Contents (Elt F) → (⟨S4194304x4, .i32⟩ : BufTy).Contents (Elt F) → (⟨S4194304x4, .i32⟩ : BufTy).Contents (Elt F)),
    StableHlo.nullary main_c_0 (constantI S_ 32 3#32),
    StableHlo.unary main_c_0 main_v5 (broadcastInDim S4194304x4 ![] bcast_S_S4194304x4 : (⟨S_, .i32⟩ : BufTy).Contents (Elt F) → (⟨S4194304x4, .i32⟩ : BufTy).Contents (Elt F)),
    StableHlo.binary main_v4 main_v5 main_v6 (andi : (⟨S4194304x4, .i32⟩ : BufTy).Contents (Elt F) → (⟨S4194304x4, .i32⟩ : BufTy).Contents (Elt F) → (⟨S4194304x4, .i32⟩ : BufTy).Contents (Elt F)),
    StableHlo.reshape main_v6 main_v7 rfl shapeCasts_S4194304x4_S16777216,
    StableHlo.reshape main_v7 main_v8 rfl shapeCasts_S16777216_S4096x32x128,
    StableHlo.unary main_v8 main_v9 (sitofp .f32 : (⟨S4096x32x128, .i32⟩ : BufTy).Contents (Elt F) → (⟨S4096x32x128, .f32⟩ : BufTy).Contents (Elt F)),
    StableHlo.unary main_arg2 main_v10 (broadcastInDim S4096x32x1 ![0, 1] bcast_S4096x32_S4096x32x1_0_1 : (⟨S4096x32, .f32⟩ : BufTy).Contents (Elt F) → (⟨S4096x32x1, .f32⟩ : BufTy).Contents (Elt F)),
    StableHlo.unary main_v10 main_v11 (broadcastInDim S4096x32x128 ![0, 1, 2] bcast_S4096x32x1_S4096x32x128_0_1_2 : (⟨S4096x32x1, .f32⟩ : BufTy).Contents (Elt F) → (⟨S4096x32x128, .f32⟩ : BufTy).Contents (Elt F)),
    StableHlo.binary main_v9 main_v11 main_v12 (mulf : (⟨S4096x32x128, .f32⟩ : BufTy).Contents (Elt F) → (⟨S4096x32x128, .f32⟩ : BufTy).Contents (Elt F) → (⟨S4096x32x128, .f32⟩ : BufTy).Contents (Elt F)),
    StableHlo.unary main_arg3 main_v13 (broadcastInDim S4096x32x1 ![0, 1] bcast_S4096x32_S4096x32x1_0_1 : (⟨S4096x32, .f32⟩ : BufTy).Contents (Elt F) → (⟨S4096x32x1, .f32⟩ : BufTy).Contents (Elt F)),
    StableHlo.unary main_v13 main_v14 (broadcastInDim S4096x32x128 ![0, 1, 2] bcast_S4096x32x1_S4096x32x128_0_1_2 : (⟨S4096x32x1, .f32⟩ : BufTy).Contents (Elt F) → (⟨S4096x32x128, .f32⟩ : BufTy).Contents (Elt F)),
    StableHlo.binary main_v12 main_v14 main_v15 (addf : (⟨S4096x32x128, .f32⟩ : BufTy).Contents (Elt F) → (⟨S4096x32x128, .f32⟩ : BufTy).Contents (Elt F) → (⟨S4096x32x128, .f32⟩ : BufTy).Contents (Elt F)),
    StableHlo.reshape main_v15 main_v16 rfl shapeCasts_S4096x32x128_S4096x4096,
    StableHlo.binary main_arg0 main_v16 main_v17 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    StableHlo.unary main_arg4 main_v18 (broadcastInDim S1x1x4096 ![2] bcast_S4096_S1x1x4096_2 : (⟨S4096, .f32⟩ : BufTy).Contents (Elt F) → (⟨S1x1x4096, .f32⟩ : BufTy).Contents (Elt F)),
    StableHlo.unary main_v18 main_v19 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    StableHlo.binary main_v17 main_v19 main_v20 (addf : (⟨S4x2048x4096, .f32⟩ : BufTy).Contents (Elt F) → (⟨S4x2048x4096, .f32⟩ : BufTy).Contents (Elt F) → (⟨S4x2048x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub .., nullary_bufs_sub .., unary_bufs_sub .., binary_bufs_sub .., reshape_bufs_sub .., reshape_bufs_sub .., unary_bufs_sub .., unary_bufs_sub .., unary_bufs_sub .., binary_bufs_sub .., unary_bufs_sub .., unary_bufs_sub .., binary_bufs_sub .., reshape_bufs_sub .., binary_bufs_sub .., unary_bufs_sub .., unary_bufs_sub .., binary_bufs_sub ..⟩

set_option maxHeartbeats 2000000 in
/-- From any memory with zero counters every weakly fair execution of the reference terminates with its result at
    `x ·ᵀ weight + bias` — the contraction of the activations with the dequantised weight over the feature axis, plus the
    bias broadcast along the two leading axes — and with its five argument arrays as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20)
        = addf
            (Host.dotGeneral dot_S4x2048x4096_S4096x4096_S4x2048x4096_2_1_01_0_n_n none
              (m ((c.tc : Thread nD τ).loc main_arg0))
              (Cert.Dequant.weight (F := F) (m ((c.tc : Thread nD τ).loc main_arg1)) (m ((c.tc : Thread nD τ).loc main_arg2))
                (m ((c.tc : Thread nD τ).loc main_arg3))))
            (broadcastInDim S4x2048x4096 ![0, 1, 2] bcast_S1x1x4096_S4x2048x4096_0_1_2
              (broadcastInDim S1x1x4096 ![2] bcast_S4096_S1x1x4096_2 (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v20).trans (by unfold Cert.Dequant.weight Cert.Dequant.fields; after_results_simp; rfl),
      (h c main_arg0).trans (by after_results),
      (h c main_arg1).trans (by after_results),
      (h c main_arg2).trans (by after_results),
      (h c main_arg3).trans (by after_results),
      (h c main_arg4).trans (by after_results)⟩)
    (run_seq scopedRefs_eq scopedSems_eq defs main (fun _ => ops) main_eq (fun _ => ops_sub) m ρ)

end Cert.ReferenceIdeal.RefRun

end
-- ==== Proof.RefValue.lean ====
/-
  The reference's result term is the specification. The reference contracts the last axis of the activations
  (4 × 2048 × 4096) with the second axis of the weight matrix (4096 × 4096): output entry (p, s, o) and contraction
  position `k` read the activations at (p, s, k) and the weights at (o, k). On the extended reals the contraction
  is the plain sum of those products. The bias is broadcast first to 1 × 1 × 4096 and then along the two leading
  axes, so at (p, s, o) it reads the bias at `o`. Together: `(∑ k, x[p, s, k] · w[o, k]) + b[o]`.
-/
import proofs.«408426_j73315091743455_3_alg».proof.Proof.Gen.ReferenceIdeal
import proofs.«408426_j73315091743455_3_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx Cert.Linear

/-! ### Which entries of its operands the contraction reads, axis by axis -/

theorem lhs_0 (j : S4x2048x4096.Idx) (k : dot_S4x2048x4096_S4096x4096_S4x2048x4096_2_1_01_0_n_n.contr.Idx) :
    (dot_S4x2048x4096_S4096x4096_S4x2048x4096_2_1_01_0_n_n.lhsIdx j k 0 : ℕ) = j 0 := by
  simp [DotDims.lhsIdx, dot_S4x2048x4096_S4096x4096_S4x2048x4096_2_1_01_0_n_n]; rfl
theorem lhs_1 (j : S4x2048x4096.Idx) (k : dot_S4x2048x4096_S4096x4096_S4x2048x4096_2_1_01_0_n_n.contr.Idx) :
    (dot_S4x2048x4096_S4096x4096_S4x2048x4096_2_1_01_0_n_n.lhsIdx j k 1 : ℕ) = j 1 := by
  simp [DotDims.lhsIdx, dot_S4x2048x4096_S4096x4096_S4x2048x4096_2_1_01_0_n_n]; rfl
theorem lhs_2 (j : S4x2048x4096.Idx) (k : dot_S4x2048x4096_S4096x4096_S4x2048x4096_2_1_01_0_n_n.contr.Idx) :
    (dot_S4x2048x4096_S4096x4096_S4x2048x4096_2_1_01_0_n_n.lhsIdx j k 2 : ℕ) = k ⟨0, by decide⟩ := by
  simp [DotDims.lhsIdx, dot_S4x2048x4096_S4096x4096_S4x2048x4096_2_1_01_0_n_n]; rfl
theorem rhs_0 (j : S4x2048x4096.Idx) (k : dot_S4x2048x4096_S4096x4096_S4x2048x4096_2_1_01_0_n_n.contr.Idx) :
    (dot_S4x2048x4096_S4096x4096_S4x2048x4096_2_1_01_0_n_n.rhsIdx j k 0 : ℕ) = j 2 := by
  simp [DotDims.rhsIdx, dot_S4x2048x4096_S4096x4096_S4x2048x4096_2_1_01_0_n_n]; rfl
theorem rhs_1 (j : S4x2048x4096.Idx) (k : dot_S4x2048x4096_S4096x4096_S4x2048x4096_2_1_01_0_n_n.contr.Idx) :
    (dot_S4x2048x4096_S4096x4096_S4x2048x4096_2_1_01_0_n_n.rhsIdx j k 1 : ℕ) = k ⟨0, by decide⟩ := by
  simp [DotDims.rhsIdx, dot_S4x2048x4096_S4096x4096_S4x2048x4096_2_1_01_0_n_n]; rfl

/-- The activations' index at output entry (p, s, o) and contraction position `k` is (p, s, k). -/
theorem lhs_at (p : Fin 4) (s : Fin 2048) (o : Fin 4096) (k : Fin 4096) :
    dot_S4x2048x4096_S4096x4096_S4x2048x4096_2_1_01_0_n_n.lhsIdx (ix3 p s o) ((contrEquiv1 dot_S4x2048x4096_S4096x4096_S4x2048x4096_2_1_01_0_n_n 4096 rfl rfl).symm k) = ix3 p s k := by
  funext a; apply Fin.ext
  match a with
  | ⟨0, _⟩ => exact lhs_0 _ _
  | ⟨1, _⟩ => exact lhs_1 _ _
  | ⟨2, _⟩ => exact (lhs_2 _ _).trans (contrEquiv1_symm_val dot_S4x2048x4096_S4096x4096_S4x2048x4096_2_1_01_0_n_n 4096 rfl rfl k)

/-- The weights' index at output entry (p, s, o) and contraction position `k` is (o, k). -/
theorem rhs_at (p : Fin 4) (s : Fin 2048) (o : Fin 4096) (k : Fin 4096) :
    dot_S4x2048x4096_S4096x4096_S4x2048x4096_2_1_01_0_n_n.rhsIdx (ix3 p s o) ((contrEquiv1 dot_S4x2048x4096_S4096x4096_S4x2048x4096_2_1_01_0_n_n 4096 rfl rfl).symm k) = ix2 o k := by
  funext a; apply Fin.ext
  match a with
  | ⟨0, _⟩ => exact rhs_0 _ _
  | ⟨1, _⟩ => exact (rhs_1 _ _).trans (contrEquiv1_symm_val dot_S4x2048x4096_S4096x4096_S4x2048x4096_2_1_01_0_n_n 4096 rfl rfl k)

/-- The reference's result, as a function of the activations, any weight matrix and the bias, is the specification. -/
theorem result_eq (x : S4x2048x4096.Idx → EReal) (w : S4096x4096.Idx → EReal) (b : S4096.Idx → EReal) :
    addf (F := Ideal) (φ := .f32)
        (Host.dotGeneral (F := Ideal) (φ₁ := .f32) (φ₂ := .f32) dot_S4x2048x4096_S4096x4096_S4x2048x4096_2_1_01_0_n_n none x w)
        (broadcastInDim S4x2048x4096 ![0, 1, 2] bcast_S1x1x4096_S4x2048x4096_0_1_2
          (broadcastInDim S1x1x4096 ![2] bcast_S4096_S1x1x4096_2 b))
      = linearOut x w b := by
  funext i
  obtain ⟨p, s, o, rfl⟩ : ∃ (p : Fin 4) (s : Fin 2048) (o : Fin 4096), i = ix3 p s o := ⟨i 0, i 1, i 2, eq_ix3 i⟩
  rw [linearOut_ix3]
  unfold linearAt
  show FloatOps.dotGeneral (F := Ideal) (φ₁ := .f32) (φ₂ := .f32) dot_S4x2048x4096_S4096x4096_S4x2048x4096_2_1_01_0_n_n none _ x w (ix3 p s o)
      + broadcastInDim S4x2048x4096 ![0, 1, 2] bcast_S1x1x4096_S4x2048x4096_0_1_2
          (broadcastInDim S1x1x4096 ![2] bcast_S4096_S1x1x4096_2 b) (ix3 p s o) = _
  rw [Ideal.dotGeneral_apply,
    broadcastInDim_apply ![0, 1, 2] bcast_S1x1x4096_S4x2048x4096_0_1_2 _ (ix3 p s o) (ix3 (0 : Fin 1) (0 : Fin 1) o)
      (fun a => by match a with | ⟨0, _⟩ => rfl | ⟨1, _⟩ => rfl | ⟨2, _⟩ => rfl),
    broadcastInDim_apply ![2] bcast_S4096_S1x1x4096_2 b (ix3 (0 : Fin 1) (0 : Fin 1) o) (ix1 o)
      (fun a => by match a with | ⟨0, _⟩ => rfl)]
  congr 1
  rw [← Equiv.sum_comp (contrEquiv1 dot_S4x2048x4096_S4096x4096_S4x2048x4096_2_1_01_0_n_n 4096 rfl rfl).symm]
  refine Finset.sum_congr rfl fun k _ => ?_
  rw [lhs_at, rhs_at]

end Cert.ReferenceIdeal.RefValue

end
-- ==== Proof.lean ====
/-
  A linear layer with 2-bit quantised weights: `out[p, s, o] = (∑ k, x[p, s, k] · w[o, k]) + bias[o]`, where the
  4096 × 4096 weight matrix `w` is unpacked from 2-bit fields (four to a 32-bit word) and dequantised per group of
  128 columns as `field · scale + zero`.

  The kernel program and the reference build `w` by the same host operations on the same arrays, so `w` is carried
  as one function (Proof/Weight.lean) and never opened. They differ in how they contract: the reference by one
  contraction of the 4 × 2048 × 4096 activations with `w` over the feature axis, then adding the bias broadcast along
  the two leading axes; the kernel program by flattening the activations to 8192 × 4096, computing 512 × 2048 blocks
  of `X ·ᵀ W + B` over a 2 × 16 grid (the weights narrowed to a 16-bit format first, which is the identity on the
  extended reals), and reshaping the 8192 × 4096 result back. Each side comes to the specification
  `Cert.Linear.linearOut x w bias` (Proof/Spec.lean):

    * the reference's term, read at an index (Proof/RefValue.lean), from its run (Proof/RefRun.lean);
    * the kernel block's stored value at an entry (Proof/KernelBlock.lean); the output array after the region as one
      function, because the blocks are restrictions of one function and tile the array, then the host reshape
      (Proof/KernelValue.lean); and the reshapes before and after the region cancelling (Proof/Region.lean).

  Both sides hold the same finite sum of the same products, indexed the same way after re-indexing the contraction
  by its one coordinate, so no law that could fail at an infinity is used and the finiteness precondition is never
  opened. The idealisation rewrote nothing, so `preserves` is `True`.
-/
import proofs.«408426_j73315091743455_3_alg».proof.Defs
import proofs.«408426_j73315091743455_3_alg».proof.Proof.Gen.Kernel
import proofs.«408426_j73315091743455_3_alg».proof.Proof.Gen.Kernel.Frame
import proofs.«408426_j73315091743455_3_alg».proof.Proof.Gen.KernelIdeal
import proofs.«408426_j73315091743455_3_alg».proof.Proof.Gen.KernelIdeal.Frame
import proofs.«408426_j73315091743455_3_alg».proof.Proof.Gen.ReferenceIdeal
import proofs.«408426_j73315091743455_3_alg».proof.Proof.Gen.Pre_finite_inputs
import proofs.«408426_j73315091743455_3_alg».proof.Proof.KernelValue
import proofs.«408426_j73315091743455_3_alg».proof.Proof.RefRun
import proofs.«408426_j73315091743455_3_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories that agree on the five arguments both programs end with the specification of those arguments:
    the kernel program by its run, the reference by its run and its term read at an index. -/
theorem algebraic : Cert.algebraic_KernelIdeal_ReferenceIdeal := by
  intro m ρ m' ρ' _ hagree
  refine ⟨_, Cert.KernelIdeal.RegionValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
